-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S10000x10000 .f32) (main_arg2 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S256x256 : Shape := ⟨2, ![256, 256]⟩
abbrev S400x10000 : Shape := ⟨2, ![400, 10000]⟩
abbrev S400x256 : Shape := ⟨2, ![400, 256]⟩

abbrev nBuf : Space → Nat
  | .hbm => 4
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S400x10000, .f32⟩
  | .local _ .vmem, ⟨3, _⟩ => ⟨S400x10000, .f32⟩
  | .local _ .vmem, ⟨4, _⟩ => ⟨S400x256, .f32⟩
  | .local _ .vmem, ⟨5, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S400x256_S400x256_0_0 : ∀ a, (![0, 0] : Fin 2 → Nat) a + S400x256.size a ≤ S400x256.size a
  h_S400x256 : 0 < S400x256.numel
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.FiniteEntries.lean ====
/-
  The precondition says of each of the three argument arrays that the absolute value of every entry is below +∞.
  On the extended reals that leaves exactly the real numbers: |x| = max x (−x) is +∞ at both infinities. So under
  the precondition every entry of the features, of the adjacency and of the weight is a real number.
-/
import proofs.«180012_g79740362817879_cont_9to1c4b_137_15_alg».proof.Proof.Gen.Pre_finite_inputs
import Idealize.ShloMosaic.Lib.ReduceAll
import Idealize.ShloMosaic.Lib.ValueIdx
import Idealize.ShloMosaic.PureOps.Ideal

noncomputable section

namespace Cert.GcnLayer

open Idealize.ShloMosaic Cert.Pre_finite_inputs

/-- The precondition's result is a single truth value: its shape has one index. -/
instance : Subsingleton S_.Idx := ⟨fun a b => funext fun d => d.elim0⟩

/-- The f32 pattern with all exponent bits set and no fraction bit is +∞. -/
theorem ofBits_inf : Ideal.ofBits .f32 0x7F800000#32 = ⊤ := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

/-- Under the precondition every entry of each argument array is a real number. -/
theorem entries_real (f : FVec Ideal S10000x256 .f32) (a : FVec Ideal S10000x10000 .f32) (w : FVec Ideal S256x256 .f32)
    (h : fn (F := Ideal) f a w = fun _ => 1#1) :
    (∀ i, ∃ r : ℝ, f i = r) ∧ (∀ i, ∃ r : ℝ, a i = r) ∧ (∀ i, ∃ r : ℝ, w i = r) := by
  have h0 := congrFun h ValueIdx.ix0
  dsimp only [fn] at h0
  obtain ⟨hfa, hw⟩ := IntOp.andi_eq_one.mp h0
  obtain ⟨hf, ha⟩ := IntOp.andi_eq_one.mp hfa
  exact ⟨fun i => real_of_abs_lt_inf _ (Host.reduce_andi_all _ _ _ _ _ hf i),
    fun i => real_of_abs_lt_inf _ (Host.reduce_andi_all _ _ _ _ _ ha i),
    fun i => real_of_abs_lt_inf _ (Host.reduce_andi_all _ _ _ _ _ hw i)⟩

end Cert.GcnLayer

end
-- ==== Proof.MatAssoc.lean ====
/-
  A graph-convolution layer multiplies three matrices: the adjacency `a` (10000 × 10000), the node features `f`
  (10000 × 256) and the weight `w` (256 × 256). The product can be bracketed two ways.

  * Aggregate, then project: entry (i, l) is  ∑ j, (∑ k, a i k · f k j) · w j l  — row `i` of the adjacency first
    gathers the features of all 10000 nodes, and the 256 gathered features are then sent through the weight.
  * Project, then aggregate: entry (i, l) is  ∑ k, a i k · (∑ j, f k j · w j l)  — every node's features are first
    sent through the weight, and row `i` of the adjacency then gathers the projected features.

  Over the real numbers the two agree: both are the double sum of  a i k · f k j · w j l  over (k, j), by
  distributing each product over the inner sum and exchanging the two sums. On the extended reals this needs every
  entry to be a real number (with an infinite entry a product does not distribute over a sum), which is what the
  hypotheses below say.
-/
import Idealize.ShloMosaic.Lib.ValueIdx
import Idealize.ShloMosaic.PureOps.Ideal

noncomputable section

open scoped BigOperators

namespace Cert.GcnLayer

open Idealize.ShloMosaic Idealize.ShloMosaic.ValueIdx

/-- The shapes of the features (and of the result), of the adjacency and of the weight. -/
abbrev Feat : Shape := ⟨2, ![10000, 256]⟩
abbrev Adj : Shape := ⟨2, ![10000, 10000]⟩
abbrev Wgt : Shape := ⟨2, ![256, 256]⟩

/-- Aggregate, then project: at (i, l) the sum over the 256 features `j` of the aggregated feature
    `∑ k, a i k · f k j` times the weight `w j l`. -/
def aggThenProject (f : Feat.Idx → EReal) (a : Adj.Idx → EReal) (w : Wgt.Idx → EReal) : Feat.Idx → EReal :=
  fun i => ∑ j : Fin 256, (∑ k : Fin 10000, a (ix2 (i 0 : Fin 10000) k) * f (ix2 k j)) * w (ix2 j (i 1 : Fin 256))

/-- Project, then aggregate: at (i, l) the sum over the 10000 nodes `k` of `a i k` times the projected feature
    `∑ j, f k j · w j l`. -/
def projectThenAgg (f : Feat.Idx → EReal) (a : Adj.Idx → EReal) (w : Wgt.Idx → EReal) : Feat.Idx → EReal :=
  fun i => ∑ k : Fin 10000, a (ix2 (i 0 : Fin 10000) k) * ∑ j : Fin 256, f (ix2 k j) * w (ix2 j (i 1 : Fin 256))

/-- The aggregate-then-project array at row `p`, column `l`. -/
theorem aggThenProject_apply (f : Feat.Idx → EReal) (a : Adj.Idx → EReal) (w : Wgt.Idx → EReal) (p : Fin 10000) (l : Fin 256) :
    aggThenProject f a w (ix2 p l) = ∑ j : Fin 256, (∑ k : Fin 10000, a (ix2 p k) * f (ix2 k j)) * w (ix2 j l) := rfl

/-- The project-then-aggregate array at row `p`, column `l`. -/
theorem projectThenAgg_apply (f : Feat.Idx → EReal) (a : Adj.Idx → EReal) (w : Wgt.Idx → EReal) (p : Fin 10000) (l : Fin 256) :
    projectThenAgg f a w (ix2 p l) = ∑ k : Fin 10000, a (ix2 p k) * ∑ j : Fin 256, f (ix2 k j) * w (ix2 j l) := rfl

/-- A finite sum of real numbers, taken on the extended reals, is the real sum. -/
theorem coe_sum {ι : Type} (s : Finset ι) (g : ι → ℝ) :
    ∑ x ∈ s, ((g x : ℝ) : EReal) = ((∑ x ∈ s, g x : ℝ) : EReal) := by
  classical
  induction s using Finset.induction_on with
  | empty => simp
  | insert x s hx ih => rw [Finset.sum_insert hx, Finset.sum_insert hx, ih, EReal.coe_add]

/-- The two bracketings of a triple product agree when every factor is a real number: one row `A` of the left
    matrix, the middle matrix `M`, one column `W` of the right matrix. -/
theorem assoc_of_real {ι κ : Type} [Fintype ι] [Fintype κ] (A : κ → ℝ) (M : κ → ι → ℝ) (W : ι → ℝ) :
    ∑ j, (∑ k, (A k : EReal) * (M k j : EReal)) * (W j : EReal)
      = ∑ k, (A k : EReal) * ∑ j, (M k j : EReal) * (W j : EReal) := by
  simp only [← EReal.coe_mul, coe_sum]
  refine congrArg _ ?_
  simp only [Finset.sum_mul, Finset.mul_sum]
  rw [Finset.sum_comm]
  refine Finset.sum_congr rfl fun k _ => Finset.sum_congr rfl fun j _ => ?_
  ring

/-- For arrays whose entries are all real numbers the two bracketings of the layer are the same array. -/
theorem aggThenProject_eq_projectThenAgg (f : Feat.Idx → EReal) (a : Adj.Idx → EReal) (w : Wgt.Idx → EReal)
    (hf : ∀ i, ∃ r : ℝ, f i = r) (ha : ∀ i, ∃ r : ℝ, a i = r) (hw : ∀ i, ∃ r : ℝ, w i = r) :
    aggThenProject f a w = projectThenAgg f a w := by
  choose fr hfr using hf
  choose ar har using ha
  choose wr hwr using hw
  funext i
  unfold aggThenProject projectThenAgg
  simp only [hfr, har, hwr]
  exact assoc_of_real (fun k => ar (ix2 (i 0 : Fin 10000) k)) (fun k j => fr (ix2 k j)) (fun j => wr (ix2 j (i 1 : Fin 256)))

end Cert.GcnLayer

end
-- ==== Proof.RefValue.lean ====
/-
  The reference multiplies the features by the weight first and the adjacency by that product second: its result at
  (p, l) is  ∑ k, a p k · (∑ j, f k j · w j l),  the project-then-aggregate bracketing. Each of its two matrix
  products is, on the extended reals, the plain sum over the contracted coordinate; what is left is to name the
  entries those sums read: the left operand at (row of the output, contracted coordinate), the right operand at
  (contracted coordinate, column of the output).
-/
import proofs.«180012_g79740362817879_cont_9to1c4b_137_15_alg».proof.Proof.Gen.ReferenceIdeal.Read
import proofs.«180012_g79740362817879_cont_9to1c4b_137_15_alg».proof.Proof.MatAssoc

noncomputable section

open scoped BigOperators

namespace Cert.GcnLayer.Reference

open Cert.ReferenceIdeal Cert.ReferenceIdeal.Read Idealize.ShloMosaic Idealize.ShloMosaic.ValueIdx

/-- The first product, features by weight, at (k, l): the sum over the 256 features `j` of `f k j · w j l`. -/
theorem projected_entry (f : Feat.Idx → EReal) (w : Wgt.Idx → EReal) (k : Fin 10000) (l : Fin 256) :
    val_main_v0 (F := Ideal) f w (ix2 k l) = ∑ j : Fin 256, f (ix2 k j) * w (ix2 j l) := by
  rw [val_main_v0_apply]
  refine Finset.sum_congr rfl fun j _ => ?_
  have e1 : lidx_main_v0 (ix2 k l) j = ix2 k j :=
    funext fun a => Fin.ext (by match a with | ⟨0, _⟩ => rfl | ⟨1, _⟩ => rfl)
  have e2 : ridx_main_v0 (ix2 k l) j = ix2 j l :=
    funext fun a => Fin.ext (by match a with | ⟨0, _⟩ => rfl | ⟨1, _⟩ => rfl)
  rw [e1, e2]

/-- The second product, adjacency by projected features, at (p, l): the sum over the 10000 nodes `k` of `a p k`
    times the projected feature at (k, l). -/
theorem result_entry (f : Feat.Idx → EReal) (a : Adj.Idx → EReal) (w : Wgt.Idx → EReal) (p : Fin 10000) (l : Fin 256) :
    val_main_v1 (F := Ideal) f a w (ix2 p l) = projectThenAgg f a w (ix2 p l) := by
  rw [val_main_v1_apply, projectThenAgg_apply]
  refine Finset.sum_congr rfl fun k _ => ?_
  have e1 : lidx_main_v1 (ix2 p l) k = ix2 p k :=
    funext fun a => Fin.ext (by match a with | ⟨0, _⟩ => rfl | ⟨1, _⟩ => rfl)
  have e2 : ridx_main_v1 (ix2 p l) k = ix2 k l :=
    funext fun a => Fin.ext (by match a with | ⟨0, _⟩ => rfl | ⟨1, _⟩ => rfl)
  rw [e1, e2, projected_entry]

/-- The reference's result is the project-then-aggregate bracketing of the three arrays. -/
theorem result_eq (f : Feat.Idx → EReal) (a : Adj.Idx → EReal) (w : Wgt.Idx → EReal) :
    val_main_v1 (F := Ideal) f a w = projectThenAgg f a w := by
  funext i
  obtain ⟨p, l, rfl⟩ : ∃ (p : Fin 10000) (l : Fin 256), i = ix2 p l := ⟨i 0, i 1, eq_ix2 i⟩
  exact result_entry f a w p l

end Cert.GcnLayer.Reference

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelValue.lean ====
/-
  The kernel walks the 10000 rows of the adjacency in 25 blocks of 400 rows. At block `t` it holds rows
  400·t … 400·t + 399 of the adjacency, all of the features and all of the weight, multiplies the adjacency rows by
  the features and the product by the weight, and writes the 400 × 256 result to rows 400·t … 400·t + 399 of the
  output. Entry (p, q) of what it writes is therefore
      ∑ j, (∑ k, a (400·t + p) k · f k j) · w j q,
  the aggregate-then-project bracketing at row 400·t + p, column q. The 25 blocks tile the output's rows (row `r`
  lies in block `r / 400`), so after the run the output array is that bracketing of the three argument arrays.
-/
import proofs.«180012_g79740362817879_cont_9to1c4b_137_15_alg».proof.Proof.Gen.KernelIdeal.Value
import proofs.«180012_g79740362817879_cont_9to1c4b_137_15_alg».proof.Proof.LibDot
import proofs.«180012_g79740362817879_cont_9to1c4b_137_15_alg».proof.Proof.MatAssoc

noncomputable section

open scoped BigOperators

namespace Cert.GcnLayer.Kernel

open Cert.KernelIdeal Cert.KernelIdeal.Gen Cert.KernelIdeal.Value Idealize.ShloMosaic Idealize.ShloMosaic.ValueIdx
  Idealize.ShloMosaic.TcCoe Idealize.SL.Sem
open Idealize.ShloMosaic.Pipeline (Dat)

variable (m : (ℓ : Loc nD τ sig) → Buf (Elt Ideal) ℓ) (ρ : Dev nD → PrngReg)

/-! ## One block's arithmetic -/

/-- Entry (p, q) of the body's result from its three loaded blocks: the adjacency rows `xa` times the features `xf`,
    contracted over the 10000 nodes, then times the weight `xw`, contracted over the 256 features. Both products
    start from a zero accumulator, so each is the plain sum. -/
theorem block_entry (xa : FVec Ideal S400x10000 .f32) (xf : FVec Ideal S10000x256 .f32) (xw : FVec Ideal S256x256 .f32)
    (p : Fin 400) (q : Fin 256) :
    k0_pay1 (F := Ideal) xa xf xw (ix2 p q)
      = ∑ j : Fin 256, (∑ k : Fin 10000, xa (ix2 p k) * xf (ix2 k j)) * xw (ix2 j q) := by
  unfold k0_pay1
  refine (Cert.LibDot.matmul_10_zero_apply dot_S400x256_S256x256_S400x256_1_0_0_1_n_n rfl rfl rfl rfl rfl rfl none _ xw p q).trans ?_
  refine Finset.sum_congr rfl fun j _ => ?_
  exact congrArg (· * xw (ix2 j q))
    (Cert.LibDot.matmul_10_zero_apply dot_S400x10000_S10000x256_S400x256_1_0_0_1_n_n rfl rfl rfl rfl rfl rfl none xa xf p j)

/-! ## Which entries of the arrays a block holds -/

/-- The three argument arrays as the region finds them, and the blocks of them the body loads at point `t`. -/
abbrev featArr (c : Dev nD) : FVec Ideal S10000x256 .f32 := V m c main_arg0
abbrev adjArr (c : Dev nD) : FVec Ideal S10000x10000 .f32 := V m c main_arg1
abbrev wgtArr (c : Dev nD) : FVec Ideal S256x256 .f32 := V m c main_arg2
abbrev featBlk (c : Dev nD) (t : Fin cfg0.N) : FVec Ideal S10000x256 .f32 := iblk m c 0 t
abbrev wgtBlk (c : Dev nD) (t : Fin cfg0.N) : FVec Ideal S256x256 .f32 := iblk m c 1 t
abbrev adjBlk (c : Dev nD) (t : Fin cfg0.N) : FVec Ideal S400x10000 .f32 := iblk m c 2 t

theorem zero_offsets : (![0, 0] : Fin 2 → Nat) = fun _ => 0 := funext fun a => by fin_cases a <;> rfl

/-- The block indices over the 25 points: the features and the weight are always at block (0, 0), the adjacency and
    the output at row block `t`, column block 0. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of block `t` is row 400·t + p of the array. -/
def blockRow (t : Fin cfg0.N) (p : Fin 400) : Fin 10000 :=
  ⟨t.val * 400 + p.val, by have ht : t.val < 25 := N_0 ▸ t.isLt; have hp := p.isLt; omega⟩

/-- The features' block is the whole array. -/
theorem featBlk_entry (c : Dev nD) (t : Fin cfg0.N) (k : Fin 10000) (j : Fin 256) :
    featBlk m c t (ix2 k j) = featArr m c (ix2 k j) := by
  show V m c main_arg0 (((cfg0.win 0).blk t).view.emb (ix2 k j)) = V m c main_arg0 (ix2 k j)
  obtain ⟨e00, e01, -⟩ := block_indices t
  refine congrArg _ (funext fun a => Fin.ext ?_)
  match a with
  | ⟨0, _⟩ => show win0_0.index t (0 : Fin 2) * 10000 + 1 * k.val = k.val; omega
  | ⟨1, _⟩ => show win0_0.index t (1 : Fin 2) * 256 + 1 * j.val = j.val; omega

/-- The weight's block is the whole array. -/
theorem wgtBlk_entry (c : Dev nD) (t : Fin cfg0.N) (j : Fin 256) (q : Fin 256) :
    wgtBlk m c t (ix2 j q) = wgtArr m c (ix2 j q) := by
  show V m c main_arg2 (((cfg0.win 1).blk t).view.emb (ix2 j q)) = V m c main_arg2 (ix2 j q)
  obtain ⟨-, -, e10, e11, -⟩ := block_indices t
  refine congrArg _ (funext fun a => Fin.ext ?_)
  match a with
  | ⟨0, _⟩ => show win0_1.index t (0 : Fin 2) * 256 + 1 * j.val = j.val; omega
  | ⟨1, _⟩ => show win0_1.index t (1 : Fin 2) * 256 + 1 * q.val = q.val; omega

/-- The adjacency's block holds rows 400·t … 400·t + 399, all columns. -/
theorem adjBlk_entry (c : Dev nD) (t : Fin cfg0.N) (p : Fin 400) (k : Fin 10000) :
    adjBlk m c t (ix2 p k) = adjArr m c (ix2 (blockRow t p) k) := by
  show V m c main_arg1 (((cfg0.win 2).blk t).view.emb (ix2 p k)) = V m c main_arg1 (ix2 (blockRow t p) k)
  obtain ⟨-, -, -, -, e20, e21, -⟩ := block_indices t
  refine congrArg _ (funext fun a => Fin.ext ?_)
  match a with
  | ⟨0, _⟩ => show win0_2.index t (0 : Fin 2) * 400 + 1 * p.val = t.val * 400 + p.val; omega
  | ⟨1, _⟩ => show win0_2.index t (1 : Fin 2) * 10000 + 1 * k.val = k.val; omega

/-- Entry (p, q) of the output's block `t` is entry (400·t + p, q) of the output array. -/
theorem outBlk_index (t : Fin cfg0.N) (p : Fin 400) (q : Fin 256) :
    ((cfg0.win 3).blk t).view.emb (ix2 p q) = ix2 (blockRow t p) q := by
  obtain ⟨-, -, -, -, -, -, e30, e31⟩ := block_indices t
  refine funext fun a => Fin.ext ?_
  match a with
  | ⟨0, _⟩ => show win0_3.index t (0 : Fin 2) * 400 + 1 * p.val = t.val * 400 + p.val; omega
  | ⟨1, _⟩ => show win0_3.index t (1 : Fin 2) * 256 + 1 * q.val = q.val; omega

/-! ## What each point writes back, and the array after the run -/

/-- What point `t` writes back is block `t` of the aggregate-then-project array of the three arguments. -/
theorem flushed_eq (c : Dev nD) (t : Fin cfg0.N) :
    (dats m 0 c).flushed 3 t
      = ((cfg0.win 3).blk t).view.read (Elt Ideal) (aggThenProject (featArr m c) (adjArr m c) (wgtArr m c)) := by
  rw [flushed3]
  unfold out0_3
  rw [View.canon_unit_zero zero_offsets]
  simp only [View.ld_unit_zero (S := S400x10000) zero_offsets, View.ld_unit_zero (S := S10000x256) zero_offsets,
    View.ld_unit_zero (S := S256x256) zero_offsets]
  funext y
  obtain ⟨p, q, rfl⟩ : ∃ (p : Fin 400) (q : Fin 256), y = ix2 p q := ⟨y 0, y 1, eq_ix2 y⟩
  show k0_pay1 (F := Ideal) (adjBlk m c t) (featBlk m c t) (wgtBlk m c t) (ix2 p q)
    = aggThenProject (featArr m c) (adjArr m c) (wgtArr m c) (((cfg0.win 3).blk t).view.emb (ix2 p q))
  rw [outBlk_index, aggThenProject_apply]
  refine (block_entry (adjBlk m c t) (featBlk m c t) (wgtBlk m c t) p q).trans ?_
  refine Finset.sum_congr rfl fun j _ => ?_
  rw [wgtBlk_entry]
  refine congrArg (· * wgtArr m c (ix2 j q)) (Finset.sum_congr rfl fun k _ => ?_)
  rw [adjBlk_entry, featBlk_entry]

/-- An index of the output array is in point `t`'s block when each coordinate is in the block's range on its axis. -/
theorem mem_outBlk (t : Fin cfg0.N) (i : S10000x256.Idx) :
    i ∈ ((cfg0.win 3).blk t).view.set ↔ ∀ a : Fin 2, win0_3.index t a * S400x256.size a ≤ (i a).val
      ∧ (i a).val < win0_3.index t a * S400x256.size a + S400x256.size a := by
  show i ∈ ((View.whole main_v0).slice (win0_3.rect t)).set ↔ _
  rw [View.set_slice_whole, Rect.mem_set_unit]
  exact Iff.rfl

/-- Every entry of the output array is in some point's block: row `r` is in block `r / 400`. -/
theorem rows_covered (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  let t : Fin cfg0.N := ⟨(i 0).val / 400, by show (i 0).val / 400 < grid0.N; rw [N_0]; omega⟩
  have ht : t.val = (i 0).val / 400 := rfl
  obtain ⟨-, -, -, -, -, -, e30, e31⟩ := block_indices t
  refine ⟨t, flush0_3 t, ?_⟩
  rw [mem_outBlk]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 256 ≤ (i 1).val ∧ (i 1).val < win0_3.index t (1 : Fin 2) * 256 + 256; omega

/-- After the run the output array is the aggregate-then-project array of the three arguments. -/
theorem final (c : Dev nD) :
    (dats m 0 c).arrAt 3 cfg0.N = aggThenProject (featArr m c) (adjArr m c) (wgtArr m c) :=
  (dats m 0 c).arrAt_eq_of_cover 3 (aggThenProject (featArr m c) (adjArr m c) (wgtArr m c))
    (fun t _ => flushed_eq m c t) rows_covered

/-- The kernel's run: every weakly fair execution ends with the output at the aggregate-then-project array of the
    arguments as launched, and the arguments unchanged. -/
theorem run : θ_run defs (onTc (τ := τ) (main (F := Ideal))) ⟨m, fun _ => 0, ρ⟩ fun r => ∀ c : Dev nD,
      r.2.mem ((c : Thread nD τ).loc main_v0)
        = aggThenProject (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.GcnLayer.Kernel

end
-- ==== Proof.lean ====
/-
  A graph-convolution layer: the output is  adjacency · features · weight,  with a 10000 × 10000 adjacency `a`,
  10000 × 256 features `f` and a 256 × 256 weight `w`.

  The kernel streams the adjacency through in 25 blocks of 400 rows and, for each block, multiplies the rows by the
  features and then by the weight: entry (i, l) of its output is  ∑ j, (∑ k, a i k · f k j) · w j l.
  The reference multiplies the features by the weight first: entry (i, l) is  ∑ k, a i k · (∑ j, f k j · w j l).
  Read exactly, a matrix product into a zero accumulator is the plain sum over the contracted coordinate, so the two
  programs are the two bracketings of one triple product. Those agree when every entry is a real number (distribute
  each product over the inner sum, exchange the two sums), and the precondition — every entry's absolute value is
  below +∞ — says exactly that the entries are real. With an infinite entry the brackets can differ, so the
  precondition is used, not only carried.

  The parts: the two bracketings and their equality for real entries (MatAssoc); the precondition gives real entries
  (FiniteEntries); the reference's result is the second bracketing (RefValue); each of the kernel's 25 write-backs is a
  row block of the first bracketing, and the blocks tile the rows (KernelValue, with the matrix product at an entry
  from LibDot). Nothing of the kernel was rewritten on the way to exact arithmetic, so that conjunct is trivial; the
  three programs terminate with their arguments unchanged by the run theorems of each.
-/
import proofs.«180012_g79740362817879_cont_9to1c4b_137_15_alg».proof.Defs
import proofs.«180012_g79740362817879_cont_9to1c4b_137_15_alg».proof.Proof.Gen.Kernel
import proofs.«180012_g79740362817879_cont_9to1c4b_137_15_alg».proof.Proof.Gen.Kernel.Skeleton
import proofs.«180012_g79740362817879_cont_9to1c4b_137_15_alg».proof.Proof.Gen.Kernel.Launch
import proofs.«180012_g79740362817879_cont_9to1c4b_137_15_alg».proof.Proof.Gen.Kernel.Points
import proofs.«180012_g79740362817879_cont_9to1c4b_137_15_alg».proof.Proof.Gen.Kernel.Frame
import proofs.«180012_g79740362817879_cont_9to1c4b_137_15_alg».proof.Proof.Gen.KernelIdeal
import proofs.«180012_g79740362817879_cont_9to1c4b_137_15_alg».proof.Proof.Gen.KernelIdeal.Skeleton
import proofs.«180012_g79740362817879_cont_9to1c4b_137_15_alg».proof.Proof.Gen.KernelIdeal.Launch
import proofs.«180012_g79740362817879_cont_9to1c4b_137_15_alg».proof.Proof.Gen.KernelIdeal.Points
import proofs.«180012_g79740362817879_cont_9to1c4b_137_15_alg».proof.Proof.Gen.KernelIdeal.Frame
import proofs.«180012_g79740362817879_cont_9to1c4b_137_15_alg».proof.Proof.Gen.ReferenceIdeal
import proofs.«180012_g79740362817879_cont_9to1c4b_137_15_alg».proof.Proof.Gen.Pre_finite_inputs
import proofs.«180012_g79740362817879_cont_9to1c4b_137_15_alg».proof.Proof.Gen.KernelIdeal.Value
import proofs.«180012_g79740362817879_cont_9to1c4b_137_15_alg».proof.Proof.Gen.ReferenceIdeal.Run
import proofs.«180012_g79740362817879_cont_9to1c4b_137_15_alg».proof.Proof.Gen.ReferenceIdeal.Read
import proofs.«180012_g79740362817879_cont_9to1c4b_137_15_alg».proof.Proof.FiniteEntries
import proofs.«180012_g79740362817879_cont_9to1c4b_137_15_alg».proof.Proof.RefValue
import proofs.«180012_g79740362817879_cont_9to1c4b_137_15_alg».proof.Proof.KernelValue
import Idealize.ShloMosaic.Adequacy
import Idealize.ShloMosaic.Init

noncomputable section

namespace Cert.Proof

open Idealize.ShloMosaic Idealize.SL.Sem

/-- The kernel as printed terminates with its arguments unchanged. -/
theorem frame_kernel : Cert.frame_Kernel := fun m ρ _ => Cert.Kernel.Gen.frame m ρ

/-- So does the kernel read in exact arithmetic. -/
theorem frame_kernelIdeal : Cert.frame_KernelIdeal := fun m ρ _ => Cert.KernelIdeal.Gen.frame m ρ

/-- The reference's two host products run to the end; its arguments are never written. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments the kernel ends at the aggregate-then-project bracketing and the
    reference at the project-then-aggregate one; the arguments' entries are real under the precondition, so the two
    results are one array. -/
theorem algebraic : Cert.algebraic_KernelIdeal_ReferenceIdeal := by
  intro m ρ m' ρ' hpre hagree
  refine ⟨_, Cert.GcnLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hf, ha, hw⟩ := Cert.GcnLayer.entries_real _ _ _ (hpre c)
  exact (Cert.ReferenceIdeal.Read.val_main_v1_eq _ _ _).trans
    ((Cert.GcnLayer.Reference.result_eq _ _ _).trans
      (Cert.GcnLayer.aggThenProject_eq_projectThenAgg _ _ _ hf ha hw).symm)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
